-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x64 : Shape := ⟨2, ![100000, 64]⟩
abbrev S2000x64 : Shape := ⟨2, ![2000, 64]⟩
abbrev S3300000x64 : Shape := ⟨2, ![3300000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x64, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x64, .f32⟩
  | .hbm, ⟨79, _⟩ => ⟨S3300000x1, .f32⟩
  | .hbm, ⟨80, _⟩ => ⟨S3300000x64, .f32⟩
  | .hbm, ⟨81, _⟩ => ⟨S3300000x64, .f32⟩
  | .hbm, ⟨82, _⟩ => ⟨S_, .f32⟩
  | .hbm, ⟨83, _⟩ => ⟨S100000x64, .f32⟩
  | .hbm, ⟨84, _⟩ => ⟨S3300000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x64, .f32⟩
  | .local _ .vmem, ⟨8, _⟩ => ⟨S2000x64, .f32⟩
  | .local _ .vmem, ⟨9, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x64_S16x64_0_0 : ∀ a, (![0, 0] : Fin 2 → Nat) a + S16x64.size a ≤ S16x64.size a
  h_S16x64 : 0 < S16x64.numel
  inb_S2000x64_S2000x64_0_0 : ∀ a, (![0, 0] : Fin 2 → Nat) a + S2000x64.size a ≤ S2000x64.size a
  h_S2000x64 : 0 < S2000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x64_S2000x64_1_0_0_1_n_n_wf : DotDims.WF S2000x16 S16x64 S2000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x64, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x64, .f32⟩
  | .hbm, ⟨115, _⟩ => ⟨S3300000x1, .f32⟩
  | .hbm, ⟨116, _⟩ => ⟨S3300000x64, .f32⟩
  | .hbm, ⟨117, _⟩ => ⟨S3300000x64, .f32⟩
  | .hbm, ⟨118, _⟩ => ⟨S_, .f32⟩
  | .hbm, ⟨119, _⟩ => ⟨S100000x64, .f32⟩
  | .hbm, ⟨120, _⟩ => ⟨S3300000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.GraphLayers.lean ====
/-
  The two programs share one graph chain. From the edge list `e : i32[2, 3200000]` both build the source and
  the target node of every edge, followed by one self loop per node (`srcIdx`, `dstIdx`: 3300000 entries
  each); the in-degree of every node with its self loop, as a scatter-add of ones at the targets (`degOf`);
  its inverse square root where the degree is positive and zero elsewhere (`dinvOf`); and per edge the product
  of that number at its source and at its target (`normOf`). A layer gathers the rows of a node table at the
  sources (a negative index first moved up by the node count, `wrapIdx`), scales each row by the edge's
  number, scatter-adds the rows at the targets and adds the bias: `hidden` is the first layer followed by the
  maximum with zero, `outOf` the second. Nothing here opens a gather or a scatter-add: the two programs apply
  the same operations to the same operands, and that is all the certificate needs of them.

  `rowsTimes x w` is the table of row-by-column sums, entry (r, j) the sum over k of x(r, k) · w(k, j) on the
  extended reals: what a dense layer is, however its rows are tiled.
-/
import proofs.«162089_j73581379715089_1_alg».proof.ReferenceIdeal
import proofs.«162089_j73581379715089_1_alg».proof.Proof.Gen.ReferenceIdeal
import Idealize.ShloMosaic.Lib.ValueIdx

noncomputable section

namespace Cert.Gcn

open Idealize.ShloMosaic Idealize.ShloMosaic.ValueIdx Cert.ReferenceIdeal Cert.ReferenceIdeal.Gen

variable {F : FTy → Type} [FloatOps F]

/-- The source node of every edge, then the node numbers 0 … 99999 (one self loop per node). -/
def srcIdx (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target node of every edge, then the node numbers 0 … 99999. -/
def dstIdx (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative node index counts from the end: it is moved up by the node count before a gather. -/
def wrapIdx (i : (⟨S3300000, .i32⟩ : BufTy).Contents (Elt F)) : (⟨S3300000, .i32⟩ : BufTy).Contents (Elt F) :=
  select (cmpi .slt i (broadcastInDim S3300000 ![] bcast_S_S3300000 (constantI S_ 32 0#32))) (addi i (broadcastInDim S3300000 ![] bcast_S_S3300000 (constantI S_ 32 100000#32))) i

/-- Every node's in-degree, its self loop counted: ones scatter-added at the targets. -/
def degOf (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (dstIdx e)) (broadcastInDim S3300000 ![] bcast_S_S3300000 (constant S_ .f32 0x3F800000#32))

/-- The inverse square root of the degree where it is positive, zero elsewhere. -/
def dinvOf (e : (⟨S2x3200000, .i32⟩ : BufTy).Contents (Elt F)) : (⟨S100000, .f32⟩ : BufTy).Contents (Elt F) :=
  select (cmpf .ogt (degOf e) (broadcastInDim S100000 ![] bcast_S_S100000 (constant S_ .f32 0x00000000#32))) (Host.rsqrt (degOf e)) (broadcastInDim S100000 ![] bcast_S_S100000 (id (constant S_ .f32 0x00000000#32)))

/-- Per edge, over given edge ends `s`, `d` and a given node table `r`: the table's entry at the edge's source times
    its entry at the edge's target. -/
def normFrom (r : (⟨S100000, .f32⟩ : BufTy).Contents (Elt F)) (s d : (⟨S3300000, .i32⟩ : BufTy).Contents (Elt F)) :
    (⟨S3300000, .f32⟩ : BufTy).Contents (Elt F) :=
  mulf (Host.gather gather_S100000_S3300000x1_S3300000_n_0_n_n_0_1_1 r (broadcastInDim S3300000x1 ![0] bcast_S3300000_S3300000x1_0 (wrapIdx s))) (Host.gather gather_S100000_S3300000x1_S3300000_n_0_n_n_0_1_1 r (broadcastInDim S3300000x1 ![0] bcast_S3300000_S3300000x1_0 (wrapIdx d)))

/-- Per edge: the inverse square root of the degree at the edge's source times that at its target. -/
def normOf (e : (⟨S2x3200000, .i32⟩ : BufTy).Contents (Elt F)) : (⟨S3300000, .f32⟩ : BufTy).Contents (Elt F) :=
  normFrom (dinvOf e) (srcIdx e) (dstIdx e)

/-- The first layer after its dense step `h`, over the edge ends `s`, `d` and the per-edge number `w`: rows of `h`
    gathered at the sources, scaled per edge, scatter-added at the targets; plus the bias; then the maximum with zero. -/
def hiddenOf (h : (⟨S100000x16, .f32⟩ : BufTy).Contents (Elt F)) (s d : (⟨S3300000, .i32⟩ : BufTy).Contents (Elt F))
    (w : (⟨S3300000, .f32⟩ : BufTy).Contents (Elt F)) (b : (⟨S16, .f32⟩ : BufTy).Contents (Elt F)) :
    (⟨S100000x16, .f32⟩ : BufTy).Contents (Elt F) :=
  maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 d) (mulf (Host.gather gather_S100000x16_S3300000x1_S3300000x16_1_0_n_n_0_1_116 h (broadcastInDim S3300000x1 ![0] bcast_S3300000_S3300000x1_0 (wrapIdx s))) (broadcastInDim S3300000x16 ![0, 1] bcast_S3300000x1_S3300000x16_0_1 (broadcastInDim S3300000x1 ![0] bcast_S3300000_S3300000x1_0 w)))) (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- The second layer after its dense step `h`: the same gather, scaling and scatter-add at width 64, plus the bias. -/
def outOfL (h : (⟨S100000x64, .f32⟩ : BufTy).Contents (Elt F)) (s d : (⟨S3300000, .i32⟩ : BufTy).Contents (Elt F))
    (w : (⟨S3300000, .f32⟩ : BufTy).Contents (Elt F)) (b : (⟨S64, .f32⟩ : BufTy).Contents (Elt F)) :
    (⟨S100000x64, .f32⟩ : BufTy).Contents (Elt F) :=
  addf (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 d) (mulf (Host.gather gather_S100000x64_S3300000x1_S3300000x64_1_0_n_n_0_1_164 h (broadcastInDim S3300000x1 ![0] bcast_S3300000_S3300000x1_0 (wrapIdx s))) (broadcastInDim S3300000x64 ![0, 1] bcast_S3300000x1_S3300000x64_0_1 (broadcastInDim S3300000x1 ![0] bcast_S3300000_S3300000x1_0 w)))) (broadcastInDim S100000x64 ![0, 1] bcast_S1x64_S100000x64_0_1 (broadcastInDim S1x64 ![1] bcast_S64_S1x64_1 b))

/-- The first layer over the edge list itself. -/
def hidden (h : (⟨S100000x16, .f32⟩ : BufTy).Contents (Elt F)) (e : (⟨S2x3200000, .i32⟩ : BufTy).Contents (Elt F))
    (b : (⟨S16, .f32⟩ : BufTy).Contents (Elt F)) : (⟨S100000x16, .f32⟩ : BufTy).Contents (Elt F) :=
  hiddenOf h (srcIdx e) (dstIdx e) (normOf e) b

/-- The second layer over the edge list itself. -/
def outOf (h : (⟨S100000x64, .f32⟩ : BufTy).Contents (Elt F)) (e : (⟨S2x3200000, .i32⟩ : BufTy).Contents (Elt F))
    (b : (⟨S64, .f32⟩ : BufTy).Contents (Elt F)) : (⟨S100000x64, .f32⟩ : BufTy).Contents (Elt F) :=
  outOfL h (srcIdx e) (dstIdx e) (normOf e) b

/-- Row-by-column sums on the extended reals: entry (r, j) is the sum over k of x(r, k) · w(k, j). -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (j : Fin N) : rowsTimes x w (ix2 r j) = ∑ k : Fin K, x (ix2 r k) * w (ix2 k j) := rfl

end Cert.Gcn

end
-- ==== Proof.RefValue.lean ====
/-
  The reference's result as the two graph layers over two dense steps. Its composed term is, operation for operation,
  the second layer applied to (first-layer output) × W2, the first layer applied to x × W1, each product one whole
  `dot_general`; the reference works the degree, its inverse square root and the per-edge number out a second time
  for its second layer, from the same edge list by the same operations, so the second copy is the first
  (`result_layers`: the two terms are the same text). On the extended reals a `dot_general` contracting the left
  table's columns against the right table's rows is the table of row-by-column sums: the contraction's index type is
  re-indexed by its one coordinate and the operand indices read axis by axis (`dotA_rows`, `dotB_rows`).
-/
import proofs.«162089_j73581379715089_1_alg».proof.Proof.RefRun
import proofs.«162089_j73581379715089_1_alg».proof.Proof.GraphLayers
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.ValueP Cert.Gcn

/-! ## The composed term is the two layers -/

set_option maxRecDepth 8192 in
/-- The reference's result term: the second layer over (the first layer over x · W1) · W2, at any float family. -/
theorem result_layers {F : FTy → Type} [FloatOps F] (m : (ℓ : Loc nD τ sig) → Buf (Elt F) ℓ) (c : Dev nD) :
    res_main_v90 (F := F) m c
      = outOf (Host.dotGeneral dot_S100000x16_S16x64_S100000x64_1_0_0_1_n_n none
          (hidden (Host.dotGeneral dot_S100000x512_S512x16_S100000x16_1_0_0_1_n_n none (m ((c.tc : Thread nD τ).loc main_arg0)) (m ((c.tc : Thread nD τ).loc main_arg2)))
            (m ((c.tc : Thread nD τ).loc main_arg1)) (m ((c.tc : Thread nD τ).loc main_arg3)))
          (m ((c.tc : Thread nD τ).loc main_arg4)))
        (m ((c.tc : Thread nD τ).loc main_arg1)) (m ((c.tc : Thread nD τ).loc main_arg5)) := by
  unfold res_main_v90
  rfl

/-! ## A `dot_general` on the extended reals is the row-by-column sums -/

theorem lhsA_0 (i : S100000x16.Idx) (q : dot_S100000x512_S512x16_S100000x16_1_0_0_1_n_n.contr.Idx) :
    (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
theorem lhsA_1 (i : S100000x16.Idx) (q : dot_S100000x512_S512x16_S100000x16_1_0_0_1_n_n.contr.Idx) :
    (dot_S100000x512_S512x16_S100000x16_1_0_0_1_n_n.lhsIdx i q 1).val = (q ⟨0, by decide⟩).val :=
  dot_S100000x512_S512x16_S100000x16_1_0_0_1_n_n.lhsIdx_val_of_single rfl i q
theorem rhsA_0 (i : S100000x16.Idx) (q : dot_S100000x512_S512x16_S100000x16_1_0_0_1_n_n.contr.Idx) :
    (dot_S100000x512_S512x16_S100000x16_1_0_0_1_n_n.rhsIdx i q 0).val = (q ⟨0, by decide⟩).val :=
  dot_S100000x512_S512x16_S100000x16_1_0_0_1_n_n.rhsIdx_val_of_single rfl i q
theorem rhsA_1 (i : S100000x16.Idx) (q : dot_S100000x512_S512x16_S100000x16_1_0_0_1_n_n.contr.Idx) :
    (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

/-- The first dense step of the reference: x · W1 as row-by-column sums. -/
theorem dotA_rows (x : FVec Ideal S100000x512 .f32) (w : FVec Ideal S512x16 .f32) :
    Host.dotGeneral (F := Ideal) dot_S100000x512_S512x16_S100000x16_1_0_0_1_n_n none x w = rowsTimes x w := by
  funext i
  obtain ⟨r, j, rfl⟩ : ∃ (r : Fin 100000) (j : Fin 16), i = ix2 r j := ⟨i 0, i 1, eq_ix2 i⟩
  rw [rowsTimes_apply]
  simp only [Host.dotGeneral]
  rw [Ideal.dotGeneral_apply, ← Equiv.sum_comp (contrEquiv1 dot_S100000x512_S512x16_S100000x16_1_0_0_1_n_n 512 rfl rfl).symm]
  refine Finset.sum_congr rfl fun k _ => ?_
  have hk := contrEquiv1_symm_val dot_S100000x512_S512x16_S100000x16_1_0_0_1_n_n 512 rfl rfl k
  have el : dot_S100000x512_S512x16_S100000x16_1_0_0_1_n_n.lhsIdx (ix2 r j) ((contrEquiv1 dot_S100000x512_S512x16_S100000x16_1_0_0_1_n_n 512 rfl rfl).symm k) = ix2 r k := funext fun a => Fin.ext (by
    match a with
    | ⟨0, _⟩ => exact lhsA_0 _ _
    | ⟨1, _⟩ => exact (lhsA_1 _ _).trans hk)
  have er : dot_S100000x512_S512x16_S100000x16_1_0_0_1_n_n.rhsIdx (ix2 r j) ((contrEquiv1 dot_S100000x512_S512x16_S100000x16_1_0_0_1_n_n 512 rfl rfl).symm k) = ix2 k j := funext fun a => Fin.ext (by
    match a with
    | ⟨0, _⟩ => exact (rhsA_0 _ _).trans hk
    | ⟨1, _⟩ => exact rhsA_1 _ _)
  rw [el, er]

theorem lhsB_0 (i : S100000x64.Idx) (q : dot_S100000x16_S16x64_S100000x64_1_0_0_1_n_n.contr.Idx) :
    (dot_S100000x16_S16x64_S100000x64_1_0_0_1_n_n.lhsIdx i q 0).val = (i 0).val := by
  unfold DotDims.lhsIdx
  rw [dif_neg (show ¬(0 : Fin S100000x16.rank) ∈ dot_S100000x16_S16x64_S100000x64_1_0_0_1_n_n.lhsBatch by decide), dif_pos (show (0 : Fin S100000x16.rank) ∈ dot_S100000x16_S16x64_S100000x64_1_0_0_1_n_n.lhsNonContracting by decide)]
  rfl
theorem lhsB_1 (i : S100000x64.Idx) (q : dot_S100000x16_S16x64_S100000x64_1_0_0_1_n_n.contr.Idx) :
    (dot_S100000x16_S16x64_S100000x64_1_0_0_1_n_n.lhsIdx i q 1).val = (q ⟨0, by decide⟩).val :=
  dot_S100000x16_S16x64_S100000x64_1_0_0_1_n_n.lhsIdx_val_of_single rfl i q
theorem rhsB_0 (i : S100000x64.Idx) (q : dot_S100000x16_S16x64_S100000x64_1_0_0_1_n_n.contr.Idx) :
    (dot_S100000x16_S16x64_S100000x64_1_0_0_1_n_n.rhsIdx i q 0).val = (q ⟨0, by decide⟩).val :=
  dot_S100000x16_S16x64_S100000x64_1_0_0_1_n_n.rhsIdx_val_of_single rfl i q
theorem rhsB_1 (i : S100000x64.Idx) (q : dot_S100000x16_S16x64_S100000x64_1_0_0_1_n_n.contr.Idx) :
    (dot_S100000x16_S16x64_S100000x64_1_0_0_1_n_n.rhsIdx i q 1).val = (i 1).val := by
  unfold DotDims.rhsIdx
  rw [dif_neg (show ¬(1 : Fin S16x64.rank) ∈ dot_S100000x16_S16x64_S100000x64_1_0_0_1_n_n.rhsBatch by decide), dif_pos (show (1 : Fin S16x64.rank) ∈ dot_S100000x16_S16x64_S100000x64_1_0_0_1_n_n.rhsNonContracting by decide)]
  rfl

/-- The second dense step of the reference: h · W2 as row-by-column sums. -/
theorem dotB_rows (x : FVec Ideal S100000x16 .f32) (w : FVec Ideal S16x64 .f32) :
    Host.dotGeneral (F := Ideal) dot_S100000x16_S16x64_S100000x64_1_0_0_1_n_n none x w = rowsTimes x w := by
  funext i
  obtain ⟨r, j, rfl⟩ : ∃ (r : Fin 100000) (j : Fin 64), i = ix2 r j := ⟨i 0, i 1, eq_ix2 i⟩
  rw [rowsTimes_apply]
  simp only [Host.dotGeneral]
  rw [Ideal.dotGeneral_apply, ← Equiv.sum_comp (contrEquiv1 dot_S100000x16_S16x64_S100000x64_1_0_0_1_n_n 16 rfl rfl).symm]
  refine Finset.sum_congr rfl fun k _ => ?_
  have hk := contrEquiv1_symm_val dot_S100000x16_S16x64_S100000x64_1_0_0_1_n_n 16 rfl rfl k
  have el : dot_S100000x16_S16x64_S100000x64_1_0_0_1_n_n.lhsIdx (ix2 r j) ((contrEquiv1 dot_S100000x16_S16x64_S100000x64_1_0_0_1_n_n 16 rfl rfl).symm k) = ix2 r k := funext fun a => Fin.ext (by
    match a with
    | ⟨0, _⟩ => exact lhsB_0 _ _
    | ⟨1, _⟩ => exact (lhsB_1 _ _).trans hk)
  have er : dot_S100000x16_S16x64_S100000x64_1_0_0_1_n_n.rhsIdx (ix2 r j) ((contrEquiv1 dot_S100000x16_S16x64_S100000x64_1_0_0_1_n_n 16 rfl rfl).symm k) = ix2 k j := funext fun a => Fin.ext (by
    match a with
    | ⟨0, _⟩ => exact (rhsB_0 _ _).trans hk
    | ⟨1, _⟩ => exact rhsB_1 _ _)
  rw [el, er]

/-! ## The reference's result, on the extended reals -/

/-- The launch contents of the reference's arguments, at their literal types. -/
abbrev xIn (m : (ℓ : Loc nD τ sig) → Buf (Elt Ideal) ℓ) (c : Dev nD) : S100000x512.Idx → EReal := m ((c.tc : Thread nD τ).loc main_arg0)
abbrev w1In (m : (ℓ : Loc nD τ sig) → Buf (Elt Ideal) ℓ) (c : Dev nD) : S512x16.Idx → EReal := m ((c.tc : Thread nD τ).loc main_arg2)
abbrev w2In (m : (ℓ : Loc nD τ sig) → Buf (Elt Ideal) ℓ) (c : Dev nD) : S16x64.Idx → EReal := m ((c.tc : Thread nD τ).loc main_arg4)

/-- The reference's result: the second layer over (the first layer over the row-by-column sums of x and W1) times W2. -/
theorem result_rows (m : (ℓ : Loc nD τ sig) → Buf (Elt Ideal) ℓ) (c : Dev nD) :
    res_main_v90 (F := Ideal) m c
      = outOf (rowsTimes (hidden (rowsTimes (xIn m c) (w1In m c)) (m ((c.tc : Thread nD τ).loc main_arg1)) (m ((c.tc : Thread nD τ).loc main_arg3))) (w2In m c))
        (m ((c.tc : Thread nD τ).loc main_arg1)) (m ((c.tc : Thread nD τ).loc main_arg5)) := by
  rw [result_layers, dotA_rows, dotB_rows]

end Cert.ReferenceIdeal.RefValue

end
-- ==== Proof.TileDot.lean ====
/-
  One tile of a dense step, entry by entry. The kernel body loads a 2000-row tile of the left table and the whole
  right table, narrows both to bf16, and multiplies them on the matrix unit into a zero accumulator. Read on the
  extended reals the narrowing changes nothing and the product's entry (p, q) is the accumulator's zero plus the sum,
  over the one contracted coordinate k, of left(p, k) · right(k, q): the plain row-by-column sum. The contraction's
  index type is re-indexed by its one coordinate, and the product's operand indices are read axis by axis: the left
  operand's axis 0 and the right operand's axis 1 are the output's, the other two are the contracted coordinate.
  The second dense step's tile differs in its extents and in an identity reshape of the left tile.
-/
import proofs.«162089_j73581379715089_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileDot

open Idealize.ShloMosaic Idealize.ShloMosaic.ValueIdx Idealize.ShloMosaic.Pipeline Cert.KernelIdeal Cert.KernelIdeal.Gen

/-! ## The first dense step's tile: [2000, 512] × [512, 16] -/

theorem lhsA_0 (i : S2000x16.Idx) (q : dot_S2000x512_S512x16_S2000x16_1_0_0_1_n_n.contr.Idx) :
    (dot_S2000x512_S512x16_S2000x16_1_0_0_1_n_n.lhsIdx i q 0).val = (i 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
theorem lhsA_1 (i : S2000x16.Idx) (q : dot_S2000x512_S512x16_S2000x16_1_0_0_1_n_n.contr.Idx) :
    (dot_S2000x512_S512x16_S2000x16_1_0_0_1_n_n.lhsIdx i q 1).val = (q ⟨0, by decide⟩).val :=
  dot_S2000x512_S512x16_S2000x16_1_0_0_1_n_n.lhsIdx_val_of_single rfl i q
theorem rhsA_0 (i : S2000x16.Idx) (q : dot_S2000x512_S512x16_S2000x16_1_0_0_1_n_n.contr.Idx) :
    (dot_S2000x512_S512x16_S2000x16_1_0_0_1_n_n.rhsIdx i q 0).val = (q ⟨0, by decide⟩).val :=
  dot_S2000x512_S512x16_S2000x16_1_0_0_1_n_n.rhsIdx_val_of_single rfl i q
theorem rhsA_1 (i : S2000x16.Idx) (q : dot_S2000x512_S512x16_S2000x16_1_0_0_1_n_n.contr.Idx) :
    (dot_S2000x512_S512x16_S2000x16_1_0_0_1_n_n.rhsIdx i q 1).val = (i 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- Entry (p, q) of the first step's tile product is the sum over k of left(p, k) · right(k, q). -/
theorem tileA_apply (x0 : Vec Ideal S2000x512 .f32) (x1 : Vec Ideal S512x16 .f32) (p : Fin 2000) (q : Fin 16) :
    k0_pay1 (F := Ideal) x0 x1 (ix2 p q) = ∑ k : Fin 512, x0 (ix2 p k) * x1 (ix2 k q) := by
  unfold k0_pay1
  simp only [matmul]
  rw [Ideal.matmul_constant_zero_apply, ← Equiv.sum_comp (contrEquiv1 dot_S2000x512_S512x16_S2000x16_1_0_0_1_n_n 512 rfl rfl).symm]
  refine Finset.sum_congr rfl fun k _ => ?_
  have hk := contrEquiv1_symm_val dot_S2000x512_S512x16_S2000x16_1_0_0_1_n_n 512 rfl rfl k
  have el : dot_S2000x512_S512x16_S2000x16_1_0_0_1_n_n.lhsIdx (ix2 p q) ((contrEquiv1 dot_S2000x512_S512x16_S2000x16_1_0_0_1_n_n 512 rfl rfl).symm k) = ix2 p k := funext fun a => Fin.ext (by
    match a with
    | ⟨0, _⟩ => exact lhsA_0 _ _
    | ⟨1, _⟩ => exact (lhsA_1 _ _).trans hk)
  have er : dot_S2000x512_S512x16_S2000x16_1_0_0_1_n_n.rhsIdx (ix2 p q) ((contrEquiv1 dot_S2000x512_S512x16_S2000x16_1_0_0_1_n_n 512 rfl rfl).symm k) = ix2 k q := funext fun a => Fin.ext (by
    match a with
    | ⟨0, _⟩ => exact (rhsA_0 _ _).trans hk
    | ⟨1, _⟩ => exact rhsA_1 _ _)
  rw [truncf_apply, truncf_apply, el, er]

/-! ## The second dense step's tile: [2000, 16] × [16, 64] -/

theorem lhsB_0 (i : S2000x64.Idx) (q : dot_S2000x16_S16x64_S2000x64_1_0_0_1_n_n.contr.Idx) :
    (dot_S2000x16_S16x64_S2000x64_1_0_0_1_n_n.lhsIdx i q 0).val = (i 0).val := by
  unfold DotDims.lhsIdx
  rw [dif_neg (show ¬(0 : Fin S2000x16.rank) ∈ dot_S2000x16_S16x64_S2000x64_1_0_0_1_n_n.lhsBatch by decide), dif_pos (show (0 : Fin S2000x16.rank) ∈ dot_S2000x16_S16x64_S2000x64_1_0_0_1_n_n.lhsNonContracting by decide)]
  rfl
theorem lhsB_1 (i : S2000x64.Idx) (q : dot_S2000x16_S16x64_S2000x64_1_0_0_1_n_n.contr.Idx) :
    (dot_S2000x16_S16x64_S2000x64_1_0_0_1_n_n.lhsIdx i q 1).val = (q ⟨0, by decide⟩).val :=
  dot_S2000x16_S16x64_S2000x64_1_0_0_1_n_n.lhsIdx_val_of_single rfl i q
theorem rhsB_0 (i : S2000x64.Idx) (q : dot_S2000x16_S16x64_S2000x64_1_0_0_1_n_n.contr.Idx) :
    (dot_S2000x16_S16x64_S2000x64_1_0_0_1_n_n.rhsIdx i q 0).val = (q ⟨0, by decide⟩).val :=
  dot_S2000x16_S16x64_S2000x64_1_0_0_1_n_n.rhsIdx_val_of_single rfl i q
theorem rhsB_1 (i : S2000x64.Idx) (q : dot_S2000x16_S16x64_S2000x64_1_0_0_1_n_n.contr.Idx) :
    (dot_S2000x16_S16x64_S2000x64_1_0_0_1_n_n.rhsIdx i q 1).val = (i 1).val := by
  unfold DotDims.rhsIdx
  rw [dif_neg (show ¬(1 : Fin S16x64.rank) ∈ dot_S2000x16_S16x64_S2000x64_1_0_0_1_n_n.rhsBatch by decide), dif_pos (show (1 : Fin S16x64.rank) ∈ dot_S2000x16_S16x64_S2000x64_1_0_0_1_n_n.rhsNonContracting by decide)]
  rfl

/-- Entry (p, q) of the second step's tile product is the sum over k of left(p, k) · right(k, q); the reshape of
    the left tile to its own shape is the identity. -/
theorem tileB_apply (x0 : Vec Ideal S2000x16 .f32) (x1 : Vec Ideal S16x64 .f32) (p : Fin 2000) (q : Fin 64) :
    k1_pay1 (F := Ideal) x0 x1 (ix2 p q) = ∑ k : Fin 16, x0 (ix2 p k) * x1 (ix2 k q) := by
  unfold k1_pay1
  simp only [matmul]
  rw [shapeCast_self, Ideal.matmul_constant_zero_apply, ← Equiv.sum_comp (contrEquiv1 dot_S2000x16_S16x64_S2000x64_1_0_0_1_n_n 16 rfl rfl).symm]
  refine Finset.sum_congr rfl fun k _ => ?_
  have hk := contrEquiv1_symm_val dot_S2000x16_S16x64_S2000x64_1_0_0_1_n_n 16 rfl rfl k
  have el : dot_S2000x16_S16x64_S2000x64_1_0_0_1_n_n.lhsIdx (ix2 p q) ((contrEquiv1 dot_S2000x16_S16x64_S2000x64_1_0_0_1_n_n 16 rfl rfl).symm k) = ix2 p k := funext fun a => Fin.ext (by
    match a with
    | ⟨0, _⟩ => exact lhsB_0 _ _
    | ⟨1, _⟩ => exact (lhsB_1 _ _).trans hk)
  have er : dot_S2000x16_S16x64_S2000x64_1_0_0_1_n_n.rhsIdx (ix2 p q) ((contrEquiv1 dot_S2000x16_S16x64_S2000x64_1_0_0_1_n_n 16 rfl rfl).symm k) = ix2 k q := funext fun a => Fin.ext (by
    match a with
    | ⟨0, _⟩ => exact (rhsB_0 _ _).trans hk
    | ⟨1, _⟩ => exact rhsB_1 _ _)
  rw [truncf_apply, truncf_apply, el, er]

end Cert.KernelIdeal.TileDot

end
-- ==== Proof.RegionValue.lean ====
/-
  What each dense region leaves in its output array, for ANY contents `V` the region is entered from. The region's
  50 grid points each take rows 2000·t … 2000·t + 1999 of the left table and the whole right table, and write the
  tile product back as rows 2000·t … of the output. A tile's entry (p, q) is the sum over k of left-tile(p, k) ·
  right(k, q) (the tile lemma); the left tile's entry (p, k) is the left table's (2000·t + p, k), and the output
  block's entry (p, q) sits at (2000·t + p, q): so what point t writes back is block t of ONE whole-array function,
  the row-by-column sums `rowsTimes` of the two tables. Row r lies in the block of point r / 2000, so the blocks
  cover the array and it ends holding that function. No algebra on the extended reals is used: each entry is the
  same sum over the same 512 (then 16) products on both sides.
-/
import proofs.«162089_j73581379715089_1_alg».proof.Proof.Gen.KernelIdeal.Frame
import proofs.«162089_j73581379715089_1_alg».proof.Proof.TileDot
import proofs.«162089_j73581379715089_1_alg».proof.Proof.GraphLayers
import Idealize.ShloMosaic.Lib.Pipeline.Value

set_option maxRecDepth 16384

noncomputable section

namespace Cert.KernelIdeal.RegionValue

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## Region 0: rows of `main_arg0` times `main_arg2`, into `main_v30` -/

/-- The two tables region 0 reads, as it finds them, at their literal types. -/
abbrev lhs0 (c : Dev nD) : S100000x512.Idx → EReal := V c main_arg0
abbrev rhs0 (c : Dev nD) : S512x16.Idx → EReal := V c main_arg2

/-- The printed index maps over the 50 points: the left window and the output move together along the rows, every
    other block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block is some point's. -/
theorem idx_onto0 : ∀ q0 : Fin 50, ∃ t : Fin cfg0.N, win0_2.index t = ![q0.val, 0] :=
  (by decide +kernel : ∀ q0 : Fin 50, ∃ t : Fin grid0.N, win0_2.index t = ![q0.val, 0])

/-- Entry (p, k) of the left tile at point `t` is the left table's entry in the output block's row, column k. -/
theorem emb_lhs0 (t : Fin cfg0.N) (p : Fin 2000) (q : Fin 16) (k : Fin 512) :
    ((cfg0.win 0).blk t).view.emb (ix2 p k) = ix2 ((((cfg0.win 2).blk t).view.emb (ix2 p q)) 0) k := by
  obtain ⟨e0, e1, e2, e3, e4⟩ := idx_facts0 t
  funext a; apply Fin.ext
  match a with
  | ⟨0, _⟩ => show win0_0.index t (0 : Fin 2) * 2000 + 1 * p.val = win0_2.index t (0 : Fin 2) * 2000 + 1 * p.val; omega
  | ⟨1, _⟩ => show win0_0.index t (1 : Fin 2) * 512 + 1 * k.val = k.val; omega

/-- Entry (k, q) of the right window's block is the right table's entry (k, the output block's column). -/
theorem emb_rhs0 (t : Fin cfg0.N) (p : Fin 2000) (q : Fin 16) (k : Fin 512) :
    ((cfg0.win 1).blk t).view.emb (ix2 k q) = ix2 k ((((cfg0.win 2).blk t).view.emb (ix2 p q)) 1) := by
  obtain ⟨e0, e1, e2, e3, e4⟩ := idx_facts0 t
  funext a; apply Fin.ext
  match a with
  | ⟨0, _⟩ => show win0_1.index t (0 : Fin 2) * 512 + 1 * k.val = k.val; omega
  | ⟨1, _⟩ => show win0_1.index t (1 : Fin 2) * 16 + 1 * q.val = win0_2.index t (1 : Fin 2) * 16 + 1 * q.val; omega

/-- WHAT POINT `t` WRITES BACK is block `t` of the row-by-column sums of the two tables. -/
theorem flushed0 (c : Dev nD) (t : Fin cfg0.N) :
    (dat0 V c).flushed 2 t = ((cfg0.win 2).blk t).view.read (Elt Ideal) (rowsTimes (lhs0 V c) (rhs0 V c)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  funext j
  obtain ⟨p, q, rfl⟩ : ∃ (p : Fin 2000) (q : Fin 16), j = ix2 p q := ⟨j 0, j 1, eq_ix2 j⟩
  show k0_pay1 (F := Ideal) (iblk0 V c 0 t) (iblk0 V c 1 t) (ix2 p q)
    = rowsTimes (lhs0 V c) (rhs0 V c) (((cfg0.win 2).blk t).view.emb (ix2 p q))
  refine (TileDot.tileA_apply (iblk0 V c 0 t) (iblk0 V c 1 t) p q).trans ?_
  show _ = ∑ k : Fin 512, lhs0 V c (ix2 ((((cfg0.win 2).blk t).view.emb (ix2 p q)) 0) k) * rhs0 V c (ix2 k ((((cfg0.win 2).blk t).view.emb (ix2 p q)) 1))
  refine Finset.sum_congr rfl fun k _ => ?_
  show lhs0 V c (((cfg0.win 0).blk t).view.emb (ix2 p k)) * rhs0 V c (((cfg0.win 1).blk t).view.emb (ix2 k q)) = _
  rw [emb_lhs0 t p q k, emb_rhs0 t p q k]
  rfl

/-- An index of the output array is in point `t`'s block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Row r lies in the block of point r / 2000: the blocks cover the output. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- THE OUTPUT ARRAY of region 0 after its run: the row-by-column sums of the two tables it was entered with. -/
theorem final0 (c : Dev nD) : (dat0 V c).arrAt 2 cfg0.N = rowsTimes (lhs0 V c) (rhs0 V c) :=
  (dat0 V c).arrAt_eq_of_cover 2 (rowsTimes (lhs0 V c) (rhs0 V c)) (fun t _ => flushed0 V c t) cover0

/-! ## Region 1: rows of `main_v47` times `main_arg4`, into `main_v48` -/

/-- The two tables region 1 reads, as it finds them, at their literal types. -/
abbrev lhs1 (c : Dev nD) : S100000x16.Idx → EReal := V c main_v47
abbrev rhs1 (c : Dev nD) : S16x64.Idx → EReal := V c main_arg4

theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

theorem idx_onto1 : ∀ q0 : Fin 50, ∃ t : Fin cfg1.N, win1_2.index t = ![q0.val, 0] :=
  (by decide +kernel : ∀ q0 : Fin 50, ∃ t : Fin grid1.N, win1_2.index t = ![q0.val, 0])

theorem emb_lhs1 (t : Fin cfg1.N) (p : Fin 2000) (q : Fin 64) (k : Fin 16) :
    ((cfg1.win 0).blk t).view.emb (ix2 p k) = ix2 ((((cfg1.win 2).blk t).view.emb (ix2 p q)) 0) k := by
  obtain ⟨e0, e1, e2, e3, e4⟩ := idx_facts1 t
  funext a; apply Fin.ext
  match a with
  | ⟨0, _⟩ => show win1_0.index t (0 : Fin 2) * 2000 + 1 * p.val = win1_2.index t (0 : Fin 2) * 2000 + 1 * p.val; omega
  | ⟨1, _⟩ => show win1_0.index t (1 : Fin 2) * 16 + 1 * k.val = k.val; omega

theorem emb_rhs1 (t : Fin cfg1.N) (p : Fin 2000) (q : Fin 64) (k : Fin 16) :
    ((cfg1.win 1).blk t).view.emb (ix2 k q) = ix2 k ((((cfg1.win 2).blk t).view.emb (ix2 p q)) 1) := by
  obtain ⟨e0, e1, e2, e3, e4⟩ := idx_facts1 t
  funext a; apply Fin.ext
  match a with
  | ⟨0, _⟩ => show win1_1.index t (0 : Fin 2) * 16 + 1 * k.val = k.val; omega
  | ⟨1, _⟩ => show win1_1.index t (1 : Fin 2) * 64 + 1 * q.val = win1_2.index t (1 : Fin 2) * 64 + 1 * q.val; omega

theorem flushed1 (c : Dev nD) (t : Fin cfg1.N) :
    (dat1 V c).flushed 2 t = ((cfg1.win 2).blk t).view.read (Elt Ideal) (rowsTimes (lhs1 V c) (rhs1 V c)) := by
  show (cfg1.win 2).cut (grid1.coords t) ((dat1 V c).after 2 t) = _
  rw [after1_2]
  unfold out1_2
  rw [View.canon_unit_zero hz]
  simp only [View.ld_unit_zero (S := S2000x16) hz, View.ld_unit_zero (S := S16x64) hz]
  funext j
  obtain ⟨p, q, rfl⟩ : ∃ (p : Fin 2000) (q : Fin 64), j = ix2 p q := ⟨j 0, j 1, eq_ix2 j⟩
  show k1_pay1 (F := Ideal) (iblk1 V c 0 t) (iblk1 V c 1 t) (ix2 p q)
    = rowsTimes (lhs1 V c) (rhs1 V c) (((cfg1.win 2).blk t).view.emb (ix2 p q))
  refine (TileDot.tileB_apply (iblk1 V c 0 t) (iblk1 V c 1 t) p q).trans ?_
  show _ = ∑ k : Fin 16, lhs1 V c (ix2 ((((cfg1.win 2).blk t).view.emb (ix2 p q)) 0) k) * rhs1 V c (ix2 k ((((cfg1.win 2).blk t).view.emb (ix2 p q)) 1))
  refine Finset.sum_congr rfl fun k _ => ?_
  show lhs1 V c (((cfg1.win 0).blk t).view.emb (ix2 p k)) * rhs1 V c (((cfg1.win 1).blk t).view.emb (ix2 k q)) = _
  rw [emb_lhs1 t p q k, emb_rhs1 t p q k]
  rfl

theorem mem_blk1 (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v48).slice (win1_2.rect t)).set ↔ _
  rw [View.set_slice_whole, Rect.mem_set_unit]
  exact Iff.rfl

theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- THE OUTPUT ARRAY of region 1 after its run: the row-by-column sums of the two tables it was entered with. -/
theorem final1 (c : Dev nD) : (dat1 V c).arrAt 2 cfg1.N = rowsTimes (lhs1 V c) (rhs1 V c) :=
  (dat1 V c).arrAt_eq_of_cover 2 (rowsTimes (lhs1 V c) (rhs1 V c)) (fun t _ => flushed1 V c t) cover1

end Cert.KernelIdeal.RegionValue

end
-- ==== Proof.HostStretches.lean ====
/-
  The host stretches of the kernel's @main, each read at the one buffer a later segment takes from it, from ANY
  buffer contents `V` the stretch is entered with. A stretch is a straight line of operations, each writing one
  buffer from the contents of others; what a buffer holds after the line is the operation that wrote it applied to
  what its operands held, and a buffer the line does not write holds what it held. So:
  * the first stretch leaves the edge ends (the two rows of the edge list, each followed by the node numbers), the
    degree compared with zero, the degree's inverse square root, and a zero;
  * the second selects the inverse square root where the degree is positive and zero elsewhere;
  * the third multiplies, per edge, that table's entry at the source by its entry at the target;
  * the two stretches between the regions apply the first layer to region 0's output; the last applies the second
    layer to region 1's output.
-/
import proofs.«162089_j73581379715089_1_alg».proof.Proof.Gen.KernelIdeal.Launch
import proofs.«162089_j73581379715089_1_alg».proof.Proof.GraphLayers
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen Cert.Gcn

variable {F : FTy → Type} [FloatOps F]
variable (V : Valuation τ sig (Elt F))

/-! ## The first stretch: edge ends, degree, its inverse square root -/

theorem ends_src : StableHlo.after hostOps0 V (Proc.devRef .tc main_v5) = srcIdx (V (Proc.devRef .tc main_arg1)) := by
  after_results <;> rfl

theorem ends_dst : StableHlo.after hostOps0 V (Proc.devRef .tc main_v6) = dstIdx (V (Proc.devRef .tc main_arg1)) := by
  after_results <;> rfl

theorem deg_pos : StableHlo.after hostOps0 V (Proc.devRef .tc main_v12)
    = cmpf .ogt (degOf (V (Proc.devRef .tc main_arg1))) (broadcastInDim S100000 ![] bcast_S_S100000 (constant S_ .f32 0x00000000#32)) := by
  after_results <;> rfl

theorem deg_rsqrt : StableHlo.after hostOps0 V (Proc.devRef .tc main_v13) = Host.rsqrt (degOf (V (Proc.devRef .tc main_arg1))) := by
  after_results <;> rfl

theorem zero_word : StableHlo.after hostOps0 V (Proc.devRef .tc main_cst_2) = constant (F := F) S_ .f32 0x00000000#32 := by
  after_results <;> rfl

/-! ## The second stretch: the selection -/

theorem dinv_select : StableHlo.after hostOps0_1 V (Proc.devRef .tc main_v14)
    = select (V (Proc.devRef .tc main_v12)) (V (Proc.devRef .tc main_v13)) (broadcastInDim S100000 ![] bcast_S_S100000 (id (V (Proc.devRef .tc main_cst_2)))) := by
  after_results <;> rfl

theorem where_keeps_src : StableHlo.after hostOps0_1 V (Proc.devRef .tc main_v5) = V (Proc.devRef .tc main_v5) := by
  after_results <;> rfl
theorem where_keeps_dst : StableHlo.after hostOps0_1 V (Proc.devRef .tc main_v6) = V (Proc.devRef .tc main_v6) := by
  after_results <;> rfl

/-! ## The third stretch: the per-edge number -/

theorem norm_from : StableHlo.after hostOps0_2 V (Proc.devRef .tc main_v29)
    = normFrom (V (Proc.devRef .tc main_v14)) (V (Proc.devRef .tc main_v5)) (V (Proc.devRef .tc main_v6)) := by
  after_results_simp <;> rfl

/-! ## Between the regions: the first layer -/

theorem hidden_from : StableHlo.after hostOps1_1 (StableHlo.after hostOps1 V) (Proc.devRef .tc main_v47)
    = hiddenOf (V (Proc.devRef .tc main_v30)) (V (Proc.devRef .tc main_v5)) (V (Proc.devRef .tc main_v6))
        (V (Proc.devRef .tc main_v29)) (V (Proc.devRef .tc main_arg3)) := by
  after_results_simp <;> rfl

/-! ## After the regions: the second layer -/

theorem out_from : StableHlo.after hostOps2 V (Proc.devRef .tc main_v64)
    = outOfL (V (Proc.devRef .tc main_v48)) (V (Proc.devRef .tc main_v5)) (V (Proc.devRef .tc main_v6))
        (V (Proc.devRef .tc main_v29)) (V (Proc.devRef .tc main_arg5)) := by
  after_results_simp <;> rfl

end Cert.KernelIdeal.Stretch

end
-- ==== Proof.KernelFold.lean ====
/-
  The kernel's result read through its run. The run's last buffer contents are a fold through @main's segments: three
  stretches of host operations (the edge ends, the degree and its inverse square root, the per-edge number), the first
  dense region, two stretches (the first layer's gather, scaling, scatter-add, bias and maximum with zero), the second
  dense region, and a last stretch (the second layer). Read at the result buffer and walked back:
  * the last stretch applies the second layer to what region 1 left in its output array, over the edge ends and the
    per-edge number, which no later segment has touched since the first three stretches computed them;
  * region 1 left the row-by-column sums of the first layer's output and W2 (the region's value, for any entry contents);
  * the middle stretches apply the first layer to what region 0 left, the row-by-column sums of x and W1.
  A buffer that a stretch does not write, and that is none of a region's arrays, keeps its contents across it: that is
  how the edge ends, the per-edge number and the arguments are carried to where they are used.
-/
import proofs.«162089_j73581379715089_1_alg».proof.Proof.Gen.KernelIdeal.Frame
import proofs.«162089_j73581379715089_1_alg».proof.Proof.GraphLayers
import proofs.«162089_j73581379715089_1_alg».proof.Proof.RegionValue
import proofs.«162089_j73581379715089_1_alg».proof.Proof.HostStretches
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.Gcn

/-! ## The host stretches, at any float family -/

section AnyFamily

variable {F : FTy → Type} [FloatOps F]
variable (m : (ℓ : Loc nD τ sig) → Buf (Elt F) ℓ) (ρ : Dev nD → PrngReg)

/-- The edge list as launched. -/
abbrev edges (c : Dev nD) : (⟨S2x3200000, .i32⟩ : BufTy).Contents (Elt F) := m ((c : Thread nD τ).loc main_arg1)

/-! ### What the first three stretches leave (region 0's entry contents) -/

theorem W3_src (c : Dev nD) : W3 m ρ c (Proc.devRef .tc main_v5) = srcIdx (edges m c) := by
  show StableHlo.after hostOps0_2 (StableHlo.after hostOps0_1 (StableHlo.after hostOps0 (W0 m ρ c))) (Proc.devRef .tc main_v5) = _
  after_results <;> rfl

theorem W3_dst (c : Dev nD) : W3 m ρ c (Proc.devRef .tc main_v6) = dstIdx (edges m c) := by
  show StableHlo.after hostOps0_2 (StableHlo.after hostOps0_1 (StableHlo.after hostOps0 (W0 m ρ c))) (Proc.devRef .tc main_v6) = _
  after_results <;> rfl

/-- The per-edge number, stretch by stretch: the third stretch's product over the second's selection over the first's
    degree, edge ends and zero. -/
theorem W3_norm (c : Dev nD) : W3 m ρ c (Proc.devRef .tc main_v29) = normOf (edges m c) := by
  show StableHlo.after hostOps0_2 (StableHlo.after hostOps0_1 (StableHlo.after hostOps0 (W0 m ρ c))) (Proc.devRef .tc main_v29) = _
  rw [Stretch.norm_from, Stretch.dinv_select, Stretch.where_keeps_src, Stretch.where_keeps_dst, Stretch.ends_src, Stretch.ends_dst,
    Stretch.deg_pos, Stretch.deg_rsqrt, Stretch.zero_word]
  rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl

/-! ### Buffers the two middle stretches do not write keep their contents -/

theorem W6_keep_v5 (c : Dev nD) : W6 m ρ c (Proc.devRef .tc main_v5) = W4 m ρ c (Proc.devRef .tc main_v5) := by
  show StableHlo.after hostOps1_1 (StableHlo.after hostOps1 (W4 m ρ c)) (Proc.devRef .tc main_v5) = _
  after_results <;> rfl
theorem W6_keep_v6 (c : Dev nD) : W6 m ρ c (Proc.devRef .tc main_v6) = W4 m ρ c (Proc.devRef .tc main_v6) := by
  show StableHlo.after hostOps1_1 (StableHlo.after hostOps1 (W4 m ρ c)) (Proc.devRef .tc main_v6) = _
  after_results <;> rfl
theorem W6_keep_v29 (c : Dev nD) : W6 m ρ c (Proc.devRef .tc main_v29) = W4 m ρ c (Proc.devRef .tc main_v29) := by
  show StableHlo.after hostOps1_1 (StableHlo.after hostOps1 (W4 m ρ c)) (Proc.devRef .tc main_v29) = _
  after_results <;> rfl
theorem W6_keep_arg4 (c : Dev nD) : W6 m ρ c (Proc.devRef .tc main_arg4) = W4 m ρ c (Proc.devRef .tc main_arg4) := by
  show StableHlo.after hostOps1_1 (StableHlo.after hostOps1 (W4 m ρ c)) (Proc.devRef .tc main_arg4) = _
  after_results <;> rfl
theorem W6_keep_arg5 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  after_results <;> rfl

/-! ### The edge ends, the per-edge number and the arguments, where later segments read them -/

theorem W4_src (c : Dev nD) : W4 m ρ c (Proc.devRef .tc main_v5) = srcIdx (edges m c) :=
  (W4_of_ne m ρ c main_v5 (by decide)).trans (W3_src m ρ c)
theorem W4_dst (c : Dev nD) : W4 m ρ c (Proc.devRef .tc main_v6) = dstIdx (edges m c) :=
  (W4_of_ne m ρ c main_v6 (by decide)).trans (W3_dst m ρ c)
theorem W4_norm (c : Dev nD) : W4 m ρ c (Proc.devRef .tc main_v29) = normOf (edges m c) :=
  (W4_of_ne m ρ c main_v29 (by decide)).trans (W3_norm m ρ c)
theorem W4_arg3 (c : Dev nD) : W4 m ρ c (Proc.devRef .tc main_arg3) = m ((c : Thread nD τ).loc main_arg3) :=
  (W4_of_ne m ρ c main_arg3 (by decide)).trans (W3_arg3 m ρ c)
theorem W6_arg4 (c : Dev nD) : W6 m ρ c (Proc.devRef .tc main_arg4) = m ((c : Thread nD τ).loc main_arg4) :=
  (W6_keep_arg4 m ρ c).trans ((W4_of_ne m ρ c main_arg4 (by decide)).trans (W3_arg4 m ρ c))

theorem W7_src (c : Dev nD) : W7 m ρ c (Proc.devRef .tc main_v5) = srcIdx (edges m c) :=
  (W7_of_ne m ρ c main_v5 (by decide)).trans ((W6_keep_v5 m ρ c).trans (W4_src m ρ c))
theorem W7_dst (c : Dev nD) : W7 m ρ c (Proc.devRef .tc main_v6) = dstIdx (edges m c) :=
  (W7_of_ne m ρ c main_v6 (by decide)).trans ((W6_keep_v6 m ρ c).trans (W4_dst m ρ c))
theorem W7_norm (c : Dev nD) : W7 m ρ c (Proc.devRef .tc main_v29) = normOf (edges m c) :=
  (W7_of_ne m ρ c main_v29 (by decide)).trans ((W6_keep_v29 m ρ c).trans (W4_norm m ρ c))
theorem W7_arg5 (c : Dev nD) : W7 m ρ c (Proc.devRef .tc main_arg5) = m ((c : Thread nD τ).loc main_arg5) :=
  (W7_of_ne m ρ c main_arg5 (by decide)).trans ((W6_keep_arg5 m ρ c).trans ((W4_of_ne m ρ c main_arg5 (by decide)).trans (W3_arg5 m ρ c)))

/-! ### The two layers -/

/-- The two middle stretches apply the first layer to what region 0 left in its output array. -/
theorem W6_hidden (c : Dev nD) :
    W6 m ρ c (Proc.devRef .tc main_v47) = hidden (W4 m ρ c (Proc.devRef .tc main_v30)) (edges m c) (m ((c : Thread nD τ).loc main_arg3)) := by
  have h : W6 m ρ c (Proc.devRef .tc main_v47)
      = hiddenOf (W4 m ρ c (Proc.devRef .tc main_v30)) (W4 m ρ c (Proc.devRef .tc main_v5)) (W4 m ρ c (Proc.devRef .tc main_v6))
          (W4 m ρ c (Proc.devRef .tc main_v29)) (W4 m ρ c (Proc.devRef .tc main_arg3)) := by
    show StableHlo.after hostOps1_1 (StableHlo.after hostOps1 (W4 m ρ c)) (Proc.devRef .tc main_v47) = _
    exact Stretch.hidden_from (W4 m ρ c)
  rw [h, W4_src, W4_dst, W4_norm, W4_arg3]
  rfl

/-- The last stretch applies the second layer to what region 1 left in its output array. -/
theorem W8_out (c : Dev nD) :
    W8 m ρ c (Proc.devRef .tc main_v64) = outOf (W7 m ρ c (Proc.devRef .tc main_v48)) (edges m c) (m ((c : Thread nD τ).loc main_arg5)) := by
  have h : W8 m ρ c (Proc.devRef .tc main_v64)
      = outOfL (W7 m ρ c (Proc.devRef .tc main_v48)) (W7 m ρ c (Proc.devRef .tc main_v5)) (W7 m ρ c (Proc.devRef .tc main_v6))
          (W7 m ρ c (Proc.devRef .tc main_v29)) (W7 m ρ c (Proc.devRef .tc main_arg5)) := by
    show StableHlo.after hostOps2 (W7 m ρ c) (Proc.devRef .tc main_v64) = _
    exact Stretch.out_from (W7 m ρ c)
  rw [h, W7_src, W7_dst, W7_norm, W7_arg5]
  rfl

end AnyFamily

/-! ## The dense regions, on the extended reals -/

section OnReals

variable (m : (ℓ : Loc nD τ sig) → Buf (Elt Ideal) ℓ) (ρ : Dev nD → PrngReg)

/-- The launch contents of the float tables the dense steps read, at their literal types. -/
abbrev xIn (c : Dev nD) : S100000x512.Idx → EReal := m ((c : Thread nD τ).loc main_arg0)
abbrev w1In (c : Dev nD) : S512x16.Idx → EReal := m ((c : Thread nD τ).loc main_arg2)
abbrev w2In (c : Dev nD) : S16x64.Idx → EReal := m ((c : Thread nD τ).loc main_arg4)

/-- Region 0 leaves the row-by-column sums of x and W1 in its output array. -/
theorem W4_dense (c : Dev nD) : W4 m ρ c (Proc.devRef .tc main_v30) = rowsTimes (xIn m c) (w1In m c) := by
  refine (W4_arr m ρ c 2).trans ((RegionValue.final0 (V3 m ρ) c).trans ?_)
  show rowsTimes (M := 100000) (K := 512) (N := 16) (W3 m ρ c (Proc.devRef .tc main_arg0)) (W3 m ρ c (Proc.devRef .tc main_arg2)) = _
  rw [W3_arg0, W3_arg2]

/-- Region 1 leaves the row-by-column sums of the first layer's output and W2 in its output array. -/
theorem W7_dense (c : Dev nD) :
    W7 m ρ c (Proc.devRef .tc main_v48) = rowsTimes (M := 100000) (K := 16) (N := 64) (W6 m ρ c (Proc.devRef .tc main_v47)) (w2In m c) := by
  refine (W7_arr m ρ c 2).trans ((RegionValue.final1 (V6 m ρ) c).trans ?_)
  show rowsTimes (M := 100000) (K := 16) (N := 64) (W6 m ρ c (Proc.devRef .tc main_v47)) (W6 m ρ c (Proc.devRef .tc main_arg4)) = _
  rw [W6_arg4]

/-- THE KERNEL'S RESULT: the second layer over (the first layer over the row-by-column sums of x and W1) times W2. -/
theorem result_rows (c : Dev nD) :
    W8 m ρ c (Proc.devRef .tc main_v64)
      = outOf (rowsTimes (M := 100000) (K := 16) (N := 64) (hidden (rowsTimes (xIn m c) (w1In m c)) (edges m c) (m ((c : Thread nD τ).loc main_arg3))) (w2In m c))
          (edges m c) (m ((c : Thread nD τ).loc main_arg5)) := by
  rw [W8_out, W7_dense, W6_hidden, W4_dense]

end OnReals

end Cert.KernelIdeal.Fold

end
-- ==== Proof.lean ====
/-
  A two-layer graph convolution over 100000 nodes and 3200000 edges (plus one self loop per node), feature widths
  512 → 16 → 64: each layer is a dense step h = x · W, then for every edge the row of h at the edge's source scaled by
  deg(source)^(-1/2) · deg(target)^(-1/2), added into the row of the edge's target, plus a bias; between the layers the
  maximum with zero. The kernel program runs each dense step as a Pallas region of 50 grid points, each multiplying a
  2000-row tile by the whole weight table on the matrix unit with both operands narrowed to bf16, and everything else
  as host operations; the reference is jnp throughout and recomputes the degrees and the per-edge scale for its second
  layer.

  On the extended reals the two programs compute the same function of their arguments:
  * narrowing to bf16 is the identity there, and a tile product into a zero accumulator is, entry by entry, the sum over
    the contracted coordinate of left · right; tile t's rows are rows 2000·t … of the table, and the 50 output blocks
    cover the output, so a region leaves the table of row-by-column sums of its two operands — which is also what the
    reference's whole `dot_general` is. Each entry is the same finite sum on both sides: no law of arithmetic beyond
    that is used, so the inputs' finiteness is never needed;
  * the rest — edge ends, degrees, inverse square roots, per-edge scale, gather, scaling, scatter-add, bias, maximum —
    is the same chain of operations applied to equal operands on both sides, and is carried as named functions that
    are never opened; the reference's second copy of the degree and scale computation is the same term as its first.

  The kernel's three frames and the idealization statement (no rewrite was applied: it is `True`) come from the
  generated frame certificates; the kernel's result is read off the run of @main's segments at the last boundary.
-/
import proofs.«162089_j73581379715089_1_alg».proof.Defs
import proofs.«162089_j73581379715089_1_alg».proof.Proof.Gen.Kernel
import proofs.«162089_j73581379715089_1_alg».proof.Proof.Gen.Kernel.Frame
import proofs.«162089_j73581379715089_1_alg».proof.Proof.Gen.KernelIdeal
import proofs.«162089_j73581379715089_1_alg».proof.Proof.Gen.KernelIdeal.Frame
import proofs.«162089_j73581379715089_1_alg».proof.Proof.Gen.ReferenceIdeal
import proofs.«162089_j73581379715089_1_alg».proof.Proof.Gen.Pre_finite_inputs
import proofs.«162089_j73581379715089_1_alg».proof.Proof.RefRun
import proofs.«162089_j73581379715089_1_alg».proof.Proof.RefValue
import proofs.«162089_j73581379715089_1_alg».proof.Proof.KernelRun
import proofs.«162089_j73581379715089_1_alg».proof.Proof.KernelFold
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the six arguments both programs end with the second layer over (the first layer
    over the row-by-column sums of x and W1) times W2: the kernel by its run read at the last boundary, the reference
    by its composed term. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v90 (F := Ideal) m' c
    = Cert.KernelIdeal.Gen.W8 m ρ c (Proc.devRef .tc Cert.KernelIdeal.main_v64)
  rw [Cert.ReferenceIdeal.RefValue.result_rows, Cert.KernelIdeal.Fold.result_rows]
  obtain ⟨h0, h1, h2, h3, h4, h5⟩ := hagree c
  have e0 : Cert.ReferenceIdeal.RefValue.xIn m' c = Cert.KernelIdeal.Fold.xIn m c := h0
  have e2 : Cert.ReferenceIdeal.RefValue.w1In m' c = Cert.KernelIdeal.Fold.w1In m c := h2
  have e4 : Cert.ReferenceIdeal.RefValue.w2In m' c = Cert.KernelIdeal.Fold.w2In m c := h4
  rw [e0, e2, e4, h1, h3, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
